-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x4096 : Shape := ⟨3, ![32, 512, 4096]⟩
abbrev S32x64x4096 : Shape := ⟨3, ![32, 64, 4096]⟩
abbrev S64x512 : Shape := ⟨2, ![64, 512]⟩
abbrev S_ : Shape := ⟨0, ![]⟩

class Facts : Prop where
  bcast_S_S32x512x4096 : S_.BroadcastsInDim S32x512x4096 (![] : Fin 0 → Fin S32x512x4096.rank)
  reducesTo_S32x512x4096_S_d0_1_2 : S32x512x4096.ReducesTo [0, 1, 2] S_
  h_S_ : 0 < S_.numel
  bcast_S_S32x64x4096 : S_.BroadcastsInDim S32x64x4096 (![] : Fin 0 → Fin S32x64x4096.rank)
  reducesTo_S32x64x4096_S_d0_1_2 : S32x64x4096.ReducesTo [0, 1, 2] S_
  bcast_S_S64x512 : S_.BroadcastsInDim S64x512 (![] : Fin 0 → Fin S64x512.rank)
  reducesTo_S64x512_S_d0_1 : S64x512.ReducesTo [0, 1] S_

variable [Facts]

def fn {F : FTy → Type} [FloatOps F] (main_arg0 : FVec F S32x512x4096 .f32) (main_arg1 : FVec F S32x64x4096 .f32) (main_arg2 : FVec F S64x512 .f32) : IVec S_ 1 :=
  let main_v0 : FVec F S32x512x4096 .f32 := Host.absf main_arg0
  let main_cst : FVec F S_ .f32 := constant S_ .f32 0x7F800000#32
  let main_v1 : FVec F S32x512x4096 .f32 := broadcastInDim S32x512x4096 ![] bcast_S_S32x512x4096 main_cst
  let main_v2 : IVec S32x512x4096 1 := cmpf .olt main_v0 main_v1
  let main_c : IVec S_ 1 := constantI S_ 1 1#1
  let main_v3 : IVec S_ 1 := (fun x v => Host.reduce IntOp.andi x v reducesTo_S32x512x4096_S_d0_1_2 h_S_) main_v2 main_c
  let main_v4 : FVec F S32x64x4096 .f32 := Host.absf main_arg1
  let main_cst_0 : FVec F S_ .f32 := constant S_ .f32 0x7F800000#32
  let main_v5 : FVec F S32x64x4096 .f32 := broadcastInDim S32x64x4096 ![] bcast_S_S32x64x4096 main_cst_0
  let main_v6 : IVec S32x64x4096 1 := cmpf .olt main_v4 main_v5
  let main_c_1 : IVec S_ 1 := constantI S_ 1 1#1
  let main_v7 : IVec S_ 1 := (fun x v => Host.reduce IntOp.andi x v reducesTo_S32x64x4096_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  main_v13
-- ==== Kernel.lean ====
abbrev S32x512x4096 : Shape := ⟨3, ![32, 512, 4096]⟩
abbrev S32x64x4096 : Shape := ⟨3, ![32, 64, 4096]⟩
abbrev S64x512 : Shape := ⟨2, ![64, 512]⟩
abbrev S32x64x512 : Shape := ⟨3, ![32, 64, 512]⟩
abbrev S1x512x4096 : Shape := ⟨3, ![1, 512, 4096]⟩
abbrev S1x64x4096 : Shape := ⟨3, ![1, 64, 4096]⟩
abbrev S1x64x512 : Shape := ⟨3, ![1, 64, 512]⟩
abbrev S1x64 : Shape := ⟨2, ![1, 64]⟩
abbrev S1x64x1 : Shape := ⟨3, ![1, 64, 1]⟩
abbrev S512x64x32 : Shape := ⟨3, ![512, 64, 32]⟩

abbrev nBuf : Space → Nat
  | .hbm => 5
  | .vmem => 7
  | .smem => 0
  | _ => 0

abbrev bufTy : (tb : Table) → Fin (tcTables nBuf tb) → BufTy
  | .hbm, ⟨0, _⟩ => ⟨S32x512x4096, .f32⟩
  | .hbm, ⟨1, _⟩ => ⟨S32x64x4096, .f32⟩
  | .hbm, ⟨2, _⟩ => ⟨S64x512, .f32⟩
  | .hbm, ⟨3, _⟩ => ⟨S32x64x512, .f32⟩
  | .hbm, ⟨4, _⟩ => ⟨S512x64x32, .f32⟩
  | .local _ .vmem, ⟨0, _⟩ => ⟨S1x512x4096, .f32⟩
  | .local _ .vmem, ⟨1, _⟩ => ⟨S1x512x4096, .f32⟩
  | .local _ .vmem, ⟨2, _⟩ => ⟨S1x64x4096, .f32⟩
  | .local _ .vmem, ⟨3, _⟩ => ⟨S1x64x4096, .f32⟩
  | .local _ .vmem, ⟨4, _⟩ => ⟨S64x512, .f32⟩
  | .local _ .vmem, ⟨5, _⟩ => ⟨S1x64x512, .f32⟩
  | .local _ .vmem, ⟨6, _⟩ => ⟨S1x64x512, .f32⟩
  | _, _ => ⟨S32x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x64x4096_S1x64x4096_0_0_0 : ∀ a, (![0, 0, 0] : Fin 3 → Nat) a + S1x64x4096.size a ≤ S1x64x4096.size a
  h_S1x64x4096 : 0 < S1x64x4096.numel
  inb_S1x512x4096_S1x512x4096_0_0_0 : ∀ a, (![0, 0, 0] : Fin 3 → Nat) a + S1x512x4096.size a ≤ S1x512x4096.size a
  h_S1x512x4096 : 0 < S1x512x4096.numel
  bitsLt_bf16_f32 : FTy.bits .bf16 < FTy.bits .f32
  reduces_S1x64x4096_S1x64 : S1x64x4096.Reduces [2] S1x64
  shapeCasts_S1x64_S1x64x1 : S1x64.ShapeCasts S1x64x1
  inb_S64x512_S64x512_0_0 : ∀ a, (![0, 0] : Fin 2 → Nat) a + S64x512.size a ≤ S64x512.size a
  h_S64x512 : 0 < S64x512.numel
  shapeCasts_S64x512_S1x64x512 : S64x512.ShapeCasts S1x64x512
  broadcasts_S1x64x1_S1x64x512 : S1x64x1.Broadcasts S1x64x512
  inb_S1x64x512_S1x64x512_0_0_0 : ∀ a, (![0, 0, 0] : Fin 3 → Nat) a + S1x64x512.size a ≤ S1x64x512.size a
  h_S1x64x512 : 0 < S1x64x512.numel
  transposes_S32x64x512_S512x64x32_2_1_0 : S32x64x512.Transposes [2, 1, 0] S512x64x32
  dot_S1x64x4096_S1x512x4096_S1x64x512_2_2_1_1_0_0_wf : DotDims.WF S1x64x4096 S1x512x4096 S1x64x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S32x512x4096.size a
  hwx0_0 : ∀ i : grid0.Coords, EltTy.bits .f32 = 32 ∨ (Rect.block (s := S32x512x4096) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x4096.size a ≤ S32x64x4096.size a
  hwx0_1 : ∀ i : grid0.Coords, EltTy.bits .f32 = 32 ∨ (Rect.block (s := S32x64x4096) S1x64x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512.size a ≤ S32x64x512.size a
  hwx0_3 : ∀ i : grid0.Coords, EltTy.bits .f32 = 32 ∨ (Rect.block (s := S32x64x512) S1x64x512.size (cc0_transform_3 i) (hinb0_3 i)).WholeWords (EltTy.packing .f32)

variable [Facts₀]

def dot_S1x64x4096_S1x512x4096_S1x64x512_2_2_1_1_0_0 : DotDims S1x64x4096 S1x512x4096 S1x64x512 where
  lhsContracting := [2]
  rhsContracting := [2]
  lhsNonContracting := [1]
  rhsNonContracting := [1]
  lhsBatch := [0]
  rhsBatch := [0]
  wf := dot_S1x64x4096_S1x512x4096_S1x64x512_2_2_1_1_0_0_wf

abbrev win0_0 : Pipeline.Window sig grid0 :=
  Pipeline.Window.ofSpec (Memref.whole main_arg0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x512x4096 : Shape := ⟨3, ![32, 512, 4096]⟩
abbrev S32x64x4096 : Shape := ⟨3, ![32, 64, 4096]⟩
abbrev S64x512 : Shape := ⟨2, ![64, 512]⟩
abbrev S32x64x512 : Shape := ⟨3, ![32, 64, 512]⟩
abbrev S_ : Shape := ⟨0, ![]⟩
abbrev S32x64 : Shape := ⟨2, ![32, 64]⟩
abbrev S32x64x1 : Shape := ⟨3, ![32, 64, 1]⟩
abbrev S1x64x512 : Shape := ⟨3, ![1, 64, 512]⟩
abbrev S512x64x32 : Shape := ⟨3, ![512, 64, 32]⟩

abbrev nBuf : Space → Nat
  | .hbm => 13
  | .vmem => 0
  | .smem => 0
  | _ => 0

abbrev bufTy : (tb : Table) → Fin (tcTables nBuf tb) → BufTy
  | .hbm, ⟨0, _⟩ => ⟨S32x512x4096, .f32⟩
  | .hbm, ⟨1, _⟩ => ⟨S32x64x4096, .f32⟩
  | .hbm, ⟨2, _⟩ => ⟨S64x512, .f32⟩
  | .hbm, ⟨3, _⟩ => ⟨S32x64x512, .f32⟩
  | .hbm, ⟨4, _⟩ => ⟨S_, .f32⟩
  | .hbm, ⟨5, _⟩ => ⟨S32x64, .f32⟩
  | .hbm, ⟨6, _⟩ => ⟨S32x64x1, .f32⟩
  | .hbm, ⟨7, _⟩ => ⟨S1x64x512, .f32⟩
  | .hbm, ⟨8, _⟩ => ⟨S32x64x512, .f32⟩
  | .hbm, ⟨9, _⟩ => ⟨S32x64x512, .f32⟩
  | .hbm, ⟨10, _⟩ => ⟨S32x64x512, .f32⟩
  | .hbm, ⟨11, _⟩ => ⟨S32x64x512, .f32⟩
  | .hbm, ⟨12, _⟩ => ⟨S512x64x32, .f32⟩
  | _, _ => ⟨S32x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S32x64x4096_S32x64_d2 : S32x64x4096.ReducesTo [2] S32x64
  h_S_ : 0 < S_.numel
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  transposes_S32x64x512_S512x64x32_2_1_0 : S32x64x512.Transposes [2, 1, 0] S512x64x32
  dot_S32x64x4096_S32x512x4096_S32x64x512_2_2_1_1_0_0_wf : DotDims.WF S32x64x4096 S32x512x4096 S32x64x512 [2] [2] [1] [1] [0] [0]

variable [Facts₀]

def dot_S32x64x4096_S32x512x4096_S32x64x512_2_2_1_1_0_0 : DotDims S32x64x4096 S32x512x4096 S32x64x512 where
  lhsContracting := [2]
  rhsContracting := [2]
  lhsNonContracting := [1]
  rhsNonContracting := [1]
  lhsBatch := [0]
  rhsBatch := [0]
  wf := dot_S32x64x4096_S32x512x4096_S32x64x512_2_2_1_1_0_0_wf

class Facts : Prop extends Facts₀ where

variable [Facts]
-- ==== Proof.Spec.lean ====
/-
  The value both programs compute, as one function of the three argument arrays.

  With `x : [B, 512, 4096]`, `a : [B, 64, 4096]` and `c : [64, 512]` over the extended reals, the
  residual-weighted sum at `(b, k, d)` is
      V[b, k, d] = (∑ n, a[b, k, n] * x[b, d, n]) - (∑ n, a[b, k, n]) * c[k, d],
  the contraction of `a` against `x` over the last axis, less the row sum of `a` times the centre `c`.
  It is stated for any batch extent `B`: the whole arrays have `B = 32`, and one batch element read
  by itself has `B = 1`. The entry at batch `b` depends only on the slices `x[b, ·, ·]` and
  `a[b, ·, ·]`, so a batch element computed by itself is that batch's slice of the whole
  (`weightedAt_congr`). The result handed back is `V` with its axes reversed, `[512, 64, 32]`.
-/
import Idealize.ShloMosaic.PureOps.Ideal
import Idealize.ShloMosaic.Lib.ValueIdx

noncomputable section

open scoped BigOperators

namespace Cert.ResidualSum

open Idealize.ShloMosaic Idealize.ShloMosaic.ValueIdx

/-- `(∑ n, a[b, k, n] * x[b, d, n]) - (∑ n, a[b, k, n]) * c[k, d]` on the extended reals. -/
def weightedAt {B : Nat} (x : (⟨3, ![B, 512, 4096]⟩ : Shape).Idx → EReal) (a : (⟨3, ![B, 64, 4096]⟩ : Shape).Idx → EReal)
    (c : (⟨2, ![64, 512]⟩ : Shape).Idx → EReal) (b : Fin B) (k : Fin 64) (d : Fin 512) : EReal :=
  (∑ n : Fin 4096, a (ix3 b k n) * x (ix3 b d n)) - (∑ n : Fin 4096, a (ix3 b k n)) * c (ix2 k d)

/-- The whole `[32, 64, 512]` array of residual-weighted sums. -/
def weighted (x : (⟨3, ![32, 512, 4096]⟩ : Shape).Idx → EReal) (a : (⟨3, ![32, 64, 4096]⟩ : Shape).Idx → EReal)
    (c : (⟨2, ![64, 512]⟩ : Shape).Idx → EReal) : (⟨3, ![32, 64, 512]⟩ : Shape).Idx → EReal :=
  fun i => weightedAt x a c (i 0) (i 1) (i 2)

/-- The entry at batch `b` sees only batch `b`'s slices: if `x'`, `a'` at batch `b'` are `x`, `a` at batch `b`,
    row by row, the two sums agree. -/
theorem weightedAt_congr {B B' : Nat} (x : (⟨3, ![B, 512, 4096]⟩ : Shape).Idx → EReal) (a : (⟨3, ![B, 64, 4096]⟩ : Shape).Idx → EReal)
    (x' : (⟨3, ![B', 512, 4096]⟩ : Shape).Idx → EReal) (a' : (⟨3, ![B', 64, 4096]⟩ : Shape).Idx → EReal)
    (c : (⟨2, ![64, 512]⟩ : Shape).Idx → EReal) (b : Fin B) (b' : Fin B') (k : Fin 64) (d : Fin 512)
    (hx : ∀ n : Fin 4096, x' (ix3 b' d n) = x (ix3 b d n)) (ha : ∀ n : Fin 4096, a' (ix3 b' k n) = a (ix3 b k n)) :
    weightedAt x' a' c b' k d = weightedAt x a c b k d := by
  unfold weightedAt
  rw [Finset.sum_congr rfl fun n _ => by rw [ha n, hx n], Finset.sum_congr rfl fun n _ => ha n]

end Cert.ResidualSum

end
-- ==== Proof.RefValue.lean ====
/-
  The reference's value is the residual-weighted sum.

  Before its final transpose the reference holds, at `(b, k, d)`, its general dot product of `a` by
  `x` (batch axis 0, contracting the last axis of both) less the product of two broadcasts: the sum
  of `a` over its last axis started from zero, stretched along `d`, and the centre `c` stretched
  along `b`. On the extended reals the dot product is the plain sum `∑ n, a[b, k, n] * x[b, d, n]`,
  the started-from-zero sum is `0 + ∑ n, a[b, k, n]`, and each broadcast reads its operand at the
  coordinates it keeps; so the stage is `Cert.ResidualSum.weighted` entry by entry, and the result is that
  array with its axes reversed.
-/
import proofs.«165187_j13572096655817_1_alg».proof.Proof.Gen.ReferenceIdeal.Read
import proofs.«165187_j13572096655817_1_alg».proof.Proof.Spec

noncomputable section

open scoped BigOperators

namespace Cert.ResidualSum.Ref

open Cert.ReferenceIdeal Cert.ReferenceIdeal.Gen Cert.ReferenceIdeal.Read
open Idealize.ShloMosaic Idealize.ShloMosaic.ValueIdx

/-- The dot product's left operand index at `(b, k, d)` and contraction coordinate `n` is `(b, k, n)`. -/
theorem lidx_eq (i : S32x64x512.Idx) (n : Fin 4096) : lidx_main_v0 i n = ix3 (i 0) (i 1) n :=
  funext fun a => Fin.ext (by match a with | ⟨0, _⟩ => rfl | ⟨1, _⟩ => rfl | ⟨2, _⟩ => rfl)

/-- Its right operand index is `(b, d, n)`. -/
theorem ridx_eq (i : S32x64x512.Idx) (n : Fin 4096) : ridx_main_v0 i n = ix3 (i 0) (i 2) n :=
  funext fun a => Fin.ext (by match a with | ⟨0, _⟩ => rfl | ⟨1, _⟩ => rfl | ⟨2, _⟩ => rfl)

/-- Through the two broadcasts the row sum is read at `(b, k)`, whose summand at `n` is `a[b, k, n]`. -/
theorem sidx_eq (i : S32x64x512.Idx) (n : Fin 4096) : idx_main_v1 (idx_main_v2 (idx_main_v4 i)) n = ix3 (i 0) (i 1) n :=
  funext fun a => Fin.ext (by match a with | ⟨0, _⟩ => rfl | ⟨1, _⟩ => rfl | ⟨2, _⟩ => rfl)

/-- Through its two broadcasts the centre is read at `(k, d)`. -/
theorem cidx_eq (i : S32x64x512.Idx) : idx_main_v3 (idx_main_v5 i) = ix2 (i 1) (i 2) :=
  funext fun a => Fin.ext (by match a with | ⟨0, _⟩ => rfl | ⟨1, _⟩ => rfl)

/-- The stage before the transpose is the residual-weighted sum. -/
theorem stage_eq (x : (⟨S32x512x4096, .f32⟩ : BufTy).Contents (Elt Ideal)) (a : (⟨S32x64x4096, .f32⟩ : BufTy).Contents (Elt Ideal))
    (c : (⟨S64x512, .f32⟩ : BufTy).Contents (Elt Ideal)) :
    val_main_v7 (F := Ideal) x a c = weighted x a c := by
  funext i
  rw [val_main_v7_apply, val_main_v0_apply, val_main_v6_apply, val_main_v4_apply, val_main_v2_apply, val_main_v1_apply,
    val_main_v5_apply, val_main_v3_apply, val_main_cst_apply]
  simp only [lidx_eq, ridx_eq, sidx_eq, cidx_eq, Ideal.subf_def, Ideal.mulf_def]
  show _ - (Ideal.ofBits .f32 0x00000000#32 + _) * _ = _
  rw [Ideal.ofBits_zero_f32, zero_add]
  rfl

/-- The reference's result: the residual-weighted sum with its axes reversed. -/
theorem result_eq (x : (⟨S32x512x4096, .f32⟩ : BufTy).Contents (Elt Ideal)) (a : (⟨S32x64x4096, .f32⟩ : BufTy).Contents (Elt Ideal))
    (c : (⟨S64x512, .f32⟩ : BufTy).Contents (Elt Ideal)) :
    val_main_v8 (F := Ideal) x a c
      = transpose S512x64x32 [2, 1, 0] (weighted x a c) transposes_S32x64x512_S512x64x32_2_1_0 := by
  unfold val_main_v8
  rw [stage_eq]

end Cert.ResidualSum.Ref

end
-- ==== Proof.KernelBlock.lean ====
/-
  One batch element of the kernel, read at an index.

  At a grid point the kernel holds one batch element: `a : [1, 64, 4096]`, `x : [1, 512, 4096]` and the
  whole centre `c : [64, 512]`. It stores, over `[1, 64, 512]`,
      matmul(a, x) - broadcast(rowsum(a)) * c
  where the product contracts the last axis of both operands with axis 0 a batch axis and accumulates
  into zero, the row sum is taken over the last axis and then given a trailing unit axis, and `c` a
  leading one. The two operands of the product are first narrowed to a shorter float format, which on
  the extended reals changes nothing. At `(0, k, d)` the product is `∑ n, a[0, k, n] * x[0, d, n]`, the
  stretched row sum is `∑ n, a[0, k, n]`, and the re-laid centre is `c[k, d]`: the stored value is the
  residual-weighted sum of the batch element (`Cert.ResidualSum.weightedAt` at batch extent one).
-/
import proofs.«165187_j13572096655817_1_alg».proof.Proof.Gen.KernelIdeal.Skeleton
import proofs.«165187_j13572096655817_1_alg».proof.Proof.Spec
import Idealize.ShloMosaic.Lib.ValueIdx
import Idealize.ShloMosaic.Lib.Pipeline.Value
import Idealize.ShloMosaic.PureOps.Ideal.Laws

noncomputable section

open scoped BigOperators

namespace Cert.ResidualSum.Block

open Cert.KernelIdeal Cert.KernelIdeal.Gen
open Idealize.ShloMosaic Idealize.ShloMosaic.ValueIdx

/-! ## The product's operand indices -/

/-- The left operand's axis 0 is the batch axis: the result's axis 0. -/
theorem lhs_ax0 (i : S1x64x512.Idx) (q : dot_S1x64x4096_S1x512x4096_S1x64x512_2_2_1_1_0_0.contr.Idx) :
    (dot_S1x64x4096_S1x512x4096_S1x64x512_2_2_1_1_0_0.lhsIdx i q 0).val = (i 0).val := by
  unfold DotDims.lhsIdx
  rw [dif_pos (show (0 : Fin S1x64x4096.rank) ∈ dot_S1x64x4096_S1x512x4096_S1x64x512_2_2_1_1_0_0.lhsBatch by decide)]
  rfl
/-- Its axis 1 is free: the result's axis 1. -/
theorem lhs_ax1 (i : S1x64x512.Idx) (q : dot_S1x64x4096_S1x512x4096_S1x64x512_2_2_1_1_0_0.contr.Idx) :
    (dot_S1x64x4096_S1x512x4096_S1x64x512_2_2_1_1_0_0.lhsIdx i q 1).val = (i 1).val := by
  unfold DotDims.lhsIdx
  rw [dif_neg (show ¬(1 : Fin S1x64x4096.rank) ∈ dot_S1x64x4096_S1x512x4096_S1x64x512_2_2_1_1_0_0.lhsBatch by decide), dif_pos (show (1 : Fin S1x64x4096.rank) ∈ dot_S1x64x4096_S1x512x4096_S1x64x512_2_2_1_1_0_0.lhsNonContracting by decide)]
  rfl
/-- Its axis 2 is the contracted one. -/
theorem lhs_ax2 (i : S1x64x512.Idx) (q : dot_S1x64x4096_S1x512x4096_S1x64x512_2_2_1_1_0_0.contr.Idx) :
    (dot_S1x64x4096_S1x512x4096_S1x64x512_2_2_1_1_0_0.lhsIdx i q 2).val = (q ⟨0, by decide⟩).val :=
  dot_S1x64x4096_S1x512x4096_S1x64x512_2_2_1_1_0_0.lhsIdx_val_of_single rfl i q
/-- The right operand's axis 0 is the batch axis: the result's axis 0. -/
theorem rhs_ax0 (i : S1x64x512.Idx) (q : dot_S1x64x4096_S1x512x4096_S1x64x512_2_2_1_1_0_0.contr.Idx) :
    (dot_S1x64x4096_S1x512x4096_S1x64x512_2_2_1_1_0_0.rhsIdx i q 0).val = (i 0).val := by
  unfold DotDims.rhsIdx
  rw [dif_pos (show (0 : Fin S1x512x4096.rank) ∈ dot_S1x64x4096_S1x512x4096_S1x64x512_2_2_1_1_0_0.rhsBatch by decide)]
  rfl
/-- Its axis 1 is free: the result's axis 2. -/
theorem rhs_ax1 (i : S1x64x512.Idx) (q : dot_S1x64x4096_S1x512x4096_S1x64x512_2_2_1_1_0_0.contr.Idx) :
    (dot_S1x64x4096_S1x512x4096_S1x64x512_2_2_1_1_0_0.rhsIdx i q 1).val = (i 2).val := by
  unfold DotDims.rhsIdx
  rw [dif_neg (show ¬(1 : Fin S1x512x4096.rank) ∈ dot_S1x64x4096_S1x512x4096_S1x64x512_2_2_1_1_0_0.rhsBatch by decide), dif_pos (show (1 : Fin S1x512x4096.rank) ∈ dot_S1x64x4096_S1x512x4096_S1x64x512_2_2_1_1_0_0.rhsNonContracting by decide)]
  rfl
/-- Its axis 2 is the contracted one. -/
theorem rhs_ax2 (i : S1x64x512.Idx) (q : dot_S1x64x4096_S1x512x4096_S1x64x512_2_2_1_1_0_0.contr.Idx) :
    (dot_S1x64x4096_S1x512x4096_S1x64x512_2_2_1_1_0_0.rhsIdx i q 2).val = (q ⟨0, by decide⟩).val :=
  dot_S1x64x4096_S1x512x4096_S1x64x512_2_2_1_1_0_0.rhsIdx_val_of_single rfl i q

/-- The product accumulated into zero, at `(b, k, d)`: `∑ n, l[b, k, n] * r[b, d, n]`. -/
theorem product_apply {φ₁ φ₂ : FTy} (l : FVec Ideal S1x64x4096 φ₁) (r : FVec Ideal S1x512x4096 φ₂) (b : Fin 1) (k : Fin 64) (d : Fin 512) :
    matmul dot_S1x64x4096_S1x512x4096_S1x64x512_2_2_1_1_0_0 none l r (constant S1x64x512 .f32 0x00000000#32) (ix3 b k d)
      = ∑ n : Fin 4096, l (ix3 b k n) * r (ix3 b d n) := by
  show FloatOps.matmul dot_S1x64x4096_S1x512x4096_S1x64x512_2_2_1_1_0_0 none l r (constant S1x64x512 .f32 0x00000000#32) (ix3 b k d) = _
  rw [Ideal.matmul_constant_zero_apply, ← Equiv.sum_comp (contrEquiv1 dot_S1x64x4096_S1x512x4096_S1x64x512_2_2_1_1_0_0 4096 rfl rfl).symm]
  refine Finset.sum_congr rfl fun n _ => ?_
  have hn := contrEquiv1_symm_val dot_S1x64x4096_S1x512x4096_S1x64x512_2_2_1_1_0_0 4096 rfl rfl n
  have el : dot_S1x64x4096_S1x512x4096_S1x64x512_2_2_1_1_0_0.lhsIdx (ix3 b k d) ((contrEquiv1 dot_S1x64x4096_S1x512x4096_S1x64x512_2_2_1_1_0_0 4096 rfl rfl).symm n) = ix3 b k n := funext fun a => Fin.ext (by
    match a with
    | ⟨0, _⟩ => exact lhs_ax0 _ _
    | ⟨1, _⟩ => exact lhs_ax1 _ _
    | ⟨2, _⟩ => exact (lhs_ax2 _ _).trans hn)
  have er : dot_S1x64x4096_S1x512x4096_S1x64x512_2_2_1_1_0_0.rhsIdx (ix3 b k d) ((contrEquiv1 dot_S1x64x4096_S1x512x4096_S1x64x512_2_2_1_1_0_0 4096 rfl rfl).symm n) = ix3 b d n := funext fun a => Fin.ext (by
    match a with
    | ⟨0, _⟩ => exact rhs_ax0 _ _
    | ⟨1, _⟩ => exact rhs_ax1 _ _
    | ⟨2, _⟩ => exact (rhs_ax2 _ _).trans hn)
  rw [el, er]

/-! ## The row sum and the two re-layings -/

/-- The sum over the last axis, started from the additive neutral, at `(b, k)`: `∑ n, v[b, k, n]`. -/
theorem rowSum_apply (v : FVec Ideal S1x64x4096 .f32) (h : S1x64x4096.Reduces [2] S1x64) (hφ : FKind.Formats .f32)
    (hacc : (0x00000000#32 : BitVec 32) = FKind.add.neutral .f32 hφ) (b : Fin 1) (k : Fin 64) :
    multiReduction .add [2] S1x64 v 0x00000000#32 h hφ hacc (ix2 b k) = ∑ n : Fin 4096, v (ix3 b k n) := by
  refine (Ideal.multiReduction_add_single v 0x00000000#32 h hφ hacc (ix2 b k)).trans ?_
  refine Finset.sum_congr rfl fun n _ => congrArg v (funext fun a => Fin.ext ?_)
  match a with
  | ⟨0, _⟩ => rfl
  | ⟨1, _⟩ => rfl
  | ⟨2, _⟩ => rfl

/-- A `[1, 64]` array given a trailing unit axis reads `(b, k, 0)` at `(b, k)`. -/
theorem column_apply (v : S1x64.Idx → EReal) (h : S1x64.ShapeCasts S1x64x1) (b : Fin 1) (k : Fin 64) (z : Fin 1) :
    shapeCast S1x64x1 v h (ix3 b k z) = v (ix2 b k) := by
  refine shapeCast_apply v h (ix3 b k z) (ix2 b k) ?_
  rw [Shape.rowMajor_val_two, Shape.rowMajor_val_three]
  show b.val * 64 + k.val = (b.val * 64 + k.val) * 1 + z.val
  omega

/-- The column stretched along the last axis reads `(b, k, 0)` at `(b, k, d)`. -/
theorem stretch_apply (v : S1x64x1.Idx → EReal) (h : S1x64x1.Broadcasts S1x64x512) (b : Fin 1) (k : Fin 64) (d : Fin 512) :
    broadcastTo S1x64x512 v h (ix3 b k d) = v (ix3 b k 0) := by
  refine broadcastTo_apply v h (ix3 b k d) (ix3 b k 0) fun a => ?_
  match a with
  | ⟨0, _⟩ => show b.val = if (1 : Nat) = 1 then 0 else b.val; rw [if_pos rfl]; omega
  | ⟨1, _⟩ => show k.val = if (64 : Nat) = 1 then 0 else k.val; rw [if_neg (by decide)]
  | ⟨2, _⟩ => show (0 : Nat) = if (1 : Nat) = 1 then 0 else d.val; rw [if_pos rfl]

/-- The centre given a leading unit axis reads `(k, d)` at `(b, k, d)`. -/
theorem centre_apply (v : S64x512.Idx → EReal) (h : S64x512.ShapeCasts S1x64x512) (b : Fin 1) (k : Fin 64) (d : Fin 512) :
    shapeCast S1x64x512 v h (ix3 b k d) = v (ix2 k d) := by
  refine shapeCast_apply v h (ix3 b k d) (ix2 k d) ?_
  rw [Shape.rowMajor_val_two, Shape.rowMajor_val_three]
  show k.val * 512 + d.val = (b.val * 64 + k.val) * 512 + d.val
  omega

/-! ## The stored value -/

/-- What the kernel stores for its batch element, at `(b, k, d)` (`b` the one batch index): the
    residual-weighted sum of the element. -/
theorem stored_apply (av : FVec Ideal S1x64x4096 .f32) (xv : FVec Ideal S1x512x4096 .f32) (cv : FVec Ideal S64x512 .f32)
    (b : Fin 1) (k : Fin 64) (d : Fin 512) :
    k0_pay1 (F := Ideal) av xv cv (ix3 b k d) = weightedAt (B := 1) xv av cv b k d := by
  have e1 := product_apply (truncf .bf16 av bitsLt_bf16_f32) (truncf .bf16 xv bitsLt_bf16_f32) b k d
  have e2 : broadcastTo S1x64x512 (shapeCast S1x64x1 (multiReduction .add [2] S1x64 av 0x00000000#32 reduces_S1x64x4096_S1x64 (.inl rfl) rfl) shapeCasts_S1x64_S1x64x1) broadcasts_S1x64x1_S1x64x512 (ix3 b k d)
      = ∑ n : Fin 4096, av (ix3 b k n) :=
    (stretch_apply _ _ b k d).trans ((column_apply _ _ b k 0).trans (rowSum_apply av _ _ _ b k))
  have e3 := centre_apply cv shapeCasts_S64x512_S1x64x512 b k d
  unfold k0_pay1 weightedAt
  show _ - _ * _ = _
  rw [e1, e2, e3]
  rfl

end Cert.ResidualSum.Block

end
-- ==== Proof.KernelArray.lean ====
/-
  From one batch element to the whole array.

  The grid has 32 points, one per batch index. At point `t` the kernel is handed the slices
  `x[t, ·, ·]`, `a[t, ·, ·]` and the whole centre `c`, and what it stores is written back to the
  slice `[t, ·, ·]` of the `[32, 64, 512]` output. Since the stored value of a batch element is its
  residual-weighted sum (`Block.stored_apply`) and the sum at batch `t` sees only batch `t`'s slices
  (`weightedAt_congr`), what point `t` writes back is slice `t` of the one whole array
  `weighted x a c`; the 32 slices cover every index, so that array is what the output holds once
  every point has run.
-/
import proofs.«165187_j13572096655817_1_alg».proof.Proof.Gen.KernelIdeal.Frame
import proofs.«165187_j13572096655817_1_alg».proof.Proof.KernelBlock
import Idealize.ShloMosaic.Lib.Pipeline.Value

set_option maxRecDepth 16384

noncomputable section

open scoped BigOperators

namespace Cert.ResidualSum.Array

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block index of every window at every point: the batch-sliced windows sit at block
    `(t, 0, 0)`, the centre's at `(0, 0)`. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- A grid point as a batch index. -/
def batch (t : Fin cfg0.N) : Fin 32 := ⟨t.val, lt_of_lt_of_eq t.isLt N_0⟩

/-- Point `t`'s block of `x` at `(0, d, n)` is `x[t, d, n]`. -/
theorem xblock_apply (c : Dev nD) (t : Fin cfg0.N) (d : Fin 512) (n : Fin 4096) :
    iblk m c 0 t (ix3 0 d n) = V m c main_arg0 (ix3 (batch t) d n) := by
  obtain ⟨e0, e1, e2, -⟩ := block_index t
  show V m c main_arg0 (((cfg0.win 0).blk t).view.emb (ix3 0 d n)) = V m c main_arg0 (ix3 (batch t) d n)
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * d.val = d.val; omega
  | ⟨2, _⟩ => show win0_0.index t (2 : Fin 3) * 4096 + 1 * n.val = n.val; omega

/-- Point `t`'s block of `a` at `(0, k, n)` is `a[t, k, n]`. -/
theorem ablock_apply (c : Dev nD) (t : Fin cfg0.N) (k : Fin 64) (n : Fin 4096) :
    iblk m c 1 t (ix3 0 k n) = V m c main_arg1 (ix3 (batch t) k n) := by
  obtain ⟨-, -, -, e0, e1, e2, -⟩ := block_index t
  show V m c main_arg1 (((cfg0.win 1).blk t).view.emb (ix3 0 k n)) = V m c main_arg1 (ix3 (batch t) k n)
  refine congrArg _ (funext fun a => Fin.ext ?_)
  match a with
  | ⟨0, _⟩ => show win0_1.index t (0 : Fin 3) * 1 + 1 * 0 = t.val; omega
  | ⟨1, _⟩ => show win0_1.index t (1 : Fin 3) * 64 + 1 * k.val = k.val; omega
  | ⟨2, _⟩ => show win0_1.index t (2 : Fin 3) * 4096 + 1 * n.val = n.val; omega

/-- Every point's block of the centre is the centre. -/
theorem cblock_eq (c : Dev nD) (t : Fin cfg0.N) : iblk m c 2 t = V m c main_arg2 := by
  obtain ⟨-, -, -, -, -, -, e0, e1, -⟩ := block_index t
  funext y
  show V m c main_arg2 (((cfg0.win 2).blk t).view.emb y) = V m c main_arg2 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 512 + 1 * (y 1).val = (y 1).val; omega

/-- The output block's index `(0, k, d)` at point `t` sits at `(t, k, d)` in the array. -/
theorem oblock_emb (t : Fin cfg0.N) (k : Fin 64) (d : Fin 512) :
    ((cfg0.win 3).blk t).view.emb (ix3 0 k d) = ix3 (batch t) k d := by
  obtain ⟨-, -, -, -, -, -, -, -, e0, e1, e2⟩ := block_index t
  refine funext fun a => Fin.ext ?_
  match a with
  | ⟨0, _⟩ => show win0_3.index t (0 : Fin 3) * 1 + 1 * 0 = t.val; omega
  | ⟨1, _⟩ => show win0_3.index t (1 : Fin 3) * 64 + 1 * k.val = k.val; omega
  | ⟨2, _⟩ => show win0_3.index t (2 : Fin 3) * 512 + 1 * d.val = d.val; omega

/-- The blocks a point is handed, at their literal shapes. -/
abbrev xblk (c : Dev nD) (t : Fin cfg0.N) : FVec Ideal S1x512x4096 .f32 := iblk m c 0 t
abbrev ablk (c : Dev nD) (t : Fin cfg0.N) : FVec Ideal S1x64x4096 .f32 := iblk m c 1 t
abbrev cblk (c : Dev nD) (t : Fin cfg0.N) : FVec Ideal S64x512 .f32 := iblk m c 2 t

/-- What point `t` stores, at a block index, is the residual-weighted sum of the whole arrays at the
    array index the block index sits at. -/
theorem stored_slice (c : Dev nD) (t : Fin cfg0.N) (j : S1x64x512.Idx) :
    k0_pay1 (F := Ideal) (ablk m c t) (xblk m c t) (cblk m c t) j
      = weighted (V m c main_arg0) (V m c main_arg1) (V m c main_arg2) (((cfg0.win 3).blk t).view.emb j) := by
  obtain ⟨b, k, d, rfl⟩ : ∃ (b : Fin 1) (k : Fin 64) (d : Fin 512), j = ix3 b k d := ⟨j 0, j 1, j 2, eq_ix3 j⟩
  obtain rfl : b = 0 := Subsingleton.elim _ _
  refine (Block.stored_apply (ablk m c t) (xblk m c t) (cblk m c t) 0 k d).trans ?_
  rw [oblock_emb]
  show weightedAt (B := 1) (xblk m c t) (ablk m c t) (cblk m c t) 0 k d
    = weightedAt (B := 32) (V m c main_arg0) (V m c main_arg1) (V m c main_arg2) (batch t) k d
  rw [show cblk m c t = V m c main_arg2 from cblock_eq m c t]
  exact weightedAt_congr (V m c main_arg0) (V m c main_arg1) (xblk m c t) (ablk m c t) (V m c main_arg2) (batch t) 0 k d
    (fun n => xblock_apply m c t d n) (fun n => ablock_apply m c t k n)

/-- WHAT POINT `t` WRITES BACK is slice `t` of the residual-weighted sum of the arrays as the region finds them. -/
theorem flushed_eq (c : Dev nD) (t : Fin cfg0.N) :
    (dats m 0 c).flushed 3 t
      = ((cfg0.win 3).blk t).view.read (Elt Ideal) (weighted (V m c main_arg0) (V m c main_arg1) (V m c main_arg2)) := by
  show (cfg0.win 3).cut (grid0.coords t) ((dats m 0 c).after 3 t) = _
  rw [after0_3]
  unfold out0_3
  rw [View.canon_unit_zero zeros3]
  simp only [View.ld_unit_zero (S := S1x64x4096) zeros3, View.ld_unit_zero (S := S1x512x4096) zeros3, View.ld_unit_zero (S := S64x512) zeros2]
  funext j
  exact stored_slice m c t j

/-- An index of the array is in point `t`'s block iff each coordinate is in the block's range on its axis. -/
theorem mem_block (t : Fin cfg0.N) (i : S32x64x512.Idx) :
    i ∈ ((cfg0.win 3).blk t).view.set ↔ ∀ a : Fin 3, win0_3.index t a * S1x64x512.size a ≤ (i a).val ∧ (i a).val < win0_3.index t a * S1x64x512.size a + S1x64x512.size a := by
  show i ∈ ((View.whole main_v0).slice (win0_3.rect t)).set ↔ _
  rw [View.set_slice_whole, Rect.mem_set_unit]
  exact Iff.rfl

/-- Every index `(b, k, d)` of the array is in the block of the point with batch index `b`, which writes back. -/
theorem covered (i : S32x64x512.Idx) :
    ∃ t : Fin cfg0.N, (cfg0.win 3).flush t = true ∧ i ∈ ((cfg0.win 3).blk t).view.set := by
  have hi0 : (i 0).val < 32 := (i 0).isLt
  have hi1 : (i 1).val < 64 := (i 1).isLt
  have hi2 : (i 2).val < 512 := (i 2).isLt
  let t : Fin cfg0.N := ⟨(i 0).val, lt_of_lt_of_eq hi0 N_0.symm⟩
  obtain ⟨-, -, -, -, -, -, -, -, e0, e1, e2⟩ := block_index t
  have ht : t.val = (i 0).val := rfl
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 64 ≤ (i 1).val ∧ (i 1).val < win0_3.index t (1 : Fin 3) * 64 + 64; omega
  | ⟨2, _⟩ => show win0_3.index t (2 : Fin 3) * 512 ≤ (i 2).val ∧ (i 2).val < win0_3.index t (2 : Fin 3) * 512 + 512; omega

/-- THE OUTPUT ARRAY once every point has run: the residual-weighted sum of the argument arrays. -/
theorem final (c : Dev nD) :
    (dats m 0 c).arrAt 3 cfg0.N
      = weighted (m ((c : Thread nD τ).loc main_arg0)) (m ((c : Thread nD τ).loc main_arg1)) (m ((c : Thread nD τ).loc main_arg2)) := by
  have h := (dats m 0 c).arrAt_eq_of_cover 3 (weighted (V m c main_arg0) (V m c main_arg1) (V m c main_arg2))
    (fun t _ => flushed_eq m c t) covered
  rw [V_main_arg0, V_main_arg1, V_main_arg2] at h
  exact h

end Cert.ResidualSum.Array

end
-- ==== Proof.KernelRun.lean ====
/-
  The kernel's run, read.

  The program runs its one region and then reverses the axes of the region's output. Every weakly
  fair execution ends; the region's output array then holds the residual-weighted sum of the
  argument arrays (`Array.final`), the lines after the region read that array where the region
  left it, and so the program's result is that sum with its axes reversed, `[512, 64, 32]`; the
  three argument arrays end as they began.
-/
import proofs.«165187_j13572096655817_1_alg».proof.Proof.KernelArray
import Idealize.ShloMosaic.Lib.StableHlo.Run

noncomputable section

namespace Cert.ResidualSum.Run

open Cert.KernelIdeal Cert.KernelIdeal.Gen
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- What the lines after the region leave in the result buffer: the region's output array, which holds
    the residual-weighted sum, with its axes reversed. -/
theorem tail_eq (c : Dev nD) :
    Pipeline.afterTail₀ cfgs (dats m) 0 (V0 m) [hostOps1] c main_v1
      = transpose S512x64x32 [2, 1, 0]
          (weighted (m ((c : Thread nD τ).loc main_arg0)) (m ((c : Thread nD τ).loc main_arg1)) (m ((c : Thread nD τ).loc main_arg2)))
          transposes_S32x64x512_S512x64x32_2_1_0 := by
  unfold Pipeline.afterTail₀
  show StableHlo.after hostOps1 _ (Proc.devRef .tc main_v1) = _
  after_results
  exact congrArg (fun v => transpose S512x64x32 [2, 1, 0] v transposes_S32x64x512_S512x64x32_2_1_0)
    ((Pipeline.withArrays_arr spec0 launch0.win.arr_inj c _ _ 3).trans (Array.final m c))

/-- Every weakly fair execution ends with the result at the reversed residual-weighted sum of the
    arguments and the arguments unchanged. -/
theorem run : θ_run defs (onTc (τ := τ) (main (F := Ideal))) ⟨m, fun _ => 0, ρ⟩ fun r => ∀ c : Dev nD,
      r.2.mem ((c.tc : Thread nD τ).loc main_v1)
        = transpose S512x64x32 [2, 1, 0]
            (weighted (m ((c : Thread nD τ).loc main_arg0)) (m ((c : Thread nD τ).loc main_arg1)) (m ((c : Thread nD τ).loc main_arg2)))
            transposes_S32x64x512_S512x64x32_2_1_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c)))⟩)
    (run_main m ρ)

end Cert.ResidualSum.Run

end
-- ==== Proof.lean ====
/-
  A residual-weighted sum computed one batch element at a time, against the same sum computed whole.

  Arguments: `x : [32, 512, 4096]`, `a : [32, 64, 4096]`, `c : [64, 512]`. Both programs return, with its
  axes reversed to `[512, 64, 32]`, the array
      V[b, k, d] = (∑ n, a[b, k, n] * x[b, d, n]) - (∑ n, a[b, k, n]) * c[k, d].
  The reference forms the contraction as one general dot product over the whole arrays, the row sums
  of `a` as one reduction started from zero, and multiplies the broadcasts. The kernel visits the 32
  batch indices in turn; at each it narrows its slices of `a` and `x` to a shorter float format,
  multiplies them into a zero accumulator, sums the rows of its slice of `a`, and stores the
  difference into its slice of the output. Read on the extended reals the narrowing is the identity,
  a product accumulated into zero and a general dot product are the same plain sum over the
  contracted axis, and a sum started from zero is the sum; so the two programs perform the same
  additions, multiplications and one subtraction on the same entries, in the same arrangement. No
  algebraic law moves a factor or regroups a sum, and so nothing here needs the inputs to be finite:
  the precondition is never opened.

  The pieces: `Spec` states `V`; `RefValue` reads the reference's stages at an index and finds `V`;
  `KernelBlock` reads what the kernel stores for one batch element; `KernelArray` shows that the 32
  stored slices are the slices of the one array `V` and cover it; `KernelRun` carries that through the
  closing transpose. The frames of the two kernel programs are the generated ones; the reference's
  frame is its generated run with the result dropped. The idealization rewrote no operation, so
  there is nothing to preserve.
-/
import proofs.«165187_j13572096655817_1_alg».proof.Defs
import proofs.«165187_j13572096655817_1_alg».proof.Proof.Gen.Kernel
import proofs.«165187_j13572096655817_1_alg».proof.Proof.Gen.Kernel.Frame
import proofs.«165187_j13572096655817_1_alg».proof.Proof.Gen.KernelIdeal
import proofs.«165187_j13572096655817_1_alg».proof.Proof.Gen.KernelIdeal.Frame
import proofs.«165187_j13572096655817_1_alg».proof.Proof.Gen.ReferenceIdeal
import proofs.«165187_j13572096655817_1_alg».proof.Proof.Gen.ReferenceIdeal.Run
import proofs.«165187_j13572096655817_1_alg».proof.Proof.Gen.ReferenceIdeal.Read
import proofs.«165187_j13572096655817_1_alg».proof.Proof.Gen.Pre_finite_inputs
import proofs.«165187_j13572096655817_1_alg».proof.Proof.RefValue
import proofs.«165187_j13572096655817_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and keeps its arguments: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments both programs end with the residual-weighted
    sum of those arguments, axes reversed: the kernel by its run read slice by slice, the reference
    by its stages read at an index. -/
theorem algebraic : Cert.algebraic_KernelIdeal_ReferenceIdeal := by
  intro m ρ m' ρ' _ hagree
  refine ⟨_, Cert.ResidualSum.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v8_eq _ _ _).trans (Cert.ResidualSum.Ref.result_eq _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
